-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S16x4096 .f32) (main_arg3 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S256x4096 : Shape := ⟨2, ![256, 4096]⟩
abbrev S256x16 : Shape := ⟨2, ![256, 16]⟩
abbrev S8192x4096 : Shape := ⟨2, ![8192, 4096]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .bf16⟩
  | .hbm, ⟨5, _⟩ => ⟨S8192x4096, .f32⟩
  | .hbm, ⟨6, _⟩ => ⟨S8192x4096, .bf16⟩
  | .hbm, ⟨7, _⟩ => ⟨S8192x4096, .f32⟩
  | .hbm, ⟨8, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x16, .f32⟩
  | .local _ .vmem, ⟨3, _⟩ => ⟨S256x16, .f32⟩
  | .local _ .vmem, ⟨4, _⟩ => ⟨S16x4096, .f32⟩
  | .local _ .vmem, ⟨5, _⟩ => ⟨S256x4096, .bf16⟩
  | .local _ .vmem, ⟨6, _⟩ => ⟨S256x4096, .bf16⟩
  | .local _ .vmem, ⟨7, _⟩ => ⟨S512x4096, .bf16⟩
  | .local _ .vmem, ⟨8, _⟩ => ⟨S512x4096, .bf16⟩
  | .local _ .vmem, ⟨9, _⟩ => ⟨S1024x4096, .bf16⟩
  | .local _ .vmem, ⟨10, _⟩ => ⟨S1024x4096, .bf16⟩
  | .local _ .vmem, ⟨11, _⟩ => ⟨S512x1024, .f32⟩
  | .local _ .vmem, ⟨12, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x16_S256x16_0_0 : ∀ a, (![0, 0] : Fin 2 → Nat) a + S256x16.size a ≤ S256x16.size a
  h_S256x16 : 0 < S256x16.numel
  inb_S16x4096_S16x4096_0_0 : ∀ a, (![0, 0] : Fin 2 → Nat) a + S16x4096.size a ≤ S16x4096.size a
  h_S16x4096 : 0 < S16x4096.numel
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S256x16_S16x4096_S256x4096_1_0_0_1_n_n_wf : DotDims.WF S256x16 S16x4096 S256x4096 [1] [0] [0] [1] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S4096x16.size a
  hwx0_1 : ∀ i : grid0.Coords, EltTy.bits .f32 = 32 ∨ (Rect.block (s := S4096x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x4096.size a
  hwx1_2 : ∀ i : grid1.Coords, EltTy.bits .f32 = 32 ∨ (Rect.block (s := S8192x4096) S512x1024.size (cc1_transform_2 i) (hinb1_2 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4x2048x4096, .f32⟩
  | .hbm, ⟨5, _⟩ => ⟨S4x2048x16, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Algebra.lean ====
/-
  The one algebraic law behind the fused LoRA forward, on the extended reals.

  For a row `x` of the activations, a row `w` of the base weight, the low-rank factor `a` (rank × width) and a row `b` of the
  other factor (one entry per rank), all FINITE, and a finite scale `c`:

      ∑_d x_d · (w_d + c · ∑_r b_r · a_{r,d})  =  ∑_d x_d · w_d  +  c · ∑_r (∑_d x_d · a_{r,d}) · b_r .

  The left side is one contraction against the weight with the correction folded in; the right side is the base product
  plus the scaled two-step low-rank product. On the extended reals distributivity fails at the infinities, so the law is
  stated for entries that are real numbers: each side is then the coercion of the same real number, where the identity is
  distributivity and an exchange of the two finite sums.
-/
import Mathlib.Data.EReal.Operations
import Mathlib.Algebra.BigOperators.Ring.Finset
import Mathlib.Algebra.BigOperators.Group.Finset.Sigma
import Mathlib.Tactic.Ring

namespace Cert.Lora

open Finset

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: distributivity, then the two sums exchanged. -/
theorem fold_law_real {D R : Type} [Fintype D] [Fintype R] (x w : D → ℝ) (a : R → D → ℝ) (b : R → ℝ) (c : ℝ) :
    ∑ d, x d * (w d + c * ∑ r, b r * a r d) = (∑ d, x d * w d) + c * ∑ r, (∑ d, x d * a r d) * b r := by
  simp only [mul_add, Finset.sum_add_distrib]
  congr 1
  simp only [Finset.mul_sum, Finset.sum_mul]
  rw [Finset.sum_comm]
  exact Finset.sum_congr rfl fun r _ => Finset.sum_congr rfl fun d _ => by ring

/-- The law on the extended reals, every entry a real number. -/
theorem fold_law {D R : Type} [Fintype D] [Fintype R] (x w : D → EReal) (a : R → D → EReal) (b : R → EReal) (c : ℝ)
    (hx : ∀ d, ∃ r : ℝ, x d = (r : EReal)) (hw : ∀ d, ∃ r : ℝ, w d = (r : EReal))
    (ha : ∀ r d, ∃ s : ℝ, a r d = (s : EReal)) (hb : ∀ r, ∃ s : ℝ, b r = (s : EReal)) :
    ∑ d, x d * (w d + (c : EReal) * ∑ r, b r * a r d) = (∑ d, x d * w d) + (c : EReal) * ∑ r, (∑ d, x d * a r d) * b r := by
  choose x' hx' using hx
  choose w' hw' using hw
  choose a' ha' using ha
  choose b' hb' using hb
  obtain rfl : x = fun d => (x' d : EReal) := funext hx'
  obtain rfl : w = fun d => (w' d : EReal) := funext hw'
  obtain rfl : a = fun r d => (a' r d : EReal) := funext fun r => funext fun d => ha' r d
  obtain rfl : b = fun r => (b' r : EReal) := funext hb'
  simp only [← EReal.coe_mul, ← coe_sum, ← EReal.coe_add]
  exact congrArg _ (fold_law_real x' w' a' b' c)

end Cert.Lora
-- ==== Proof.Spec.lean ====
/-
  What the two programs compute, as functions of the argument arrays over the extended reals, and that they agree.

  Arguments: the activations `X` [4, 2048, 4096], the base weight `W` [4096, 4096] (output × input), the low-rank factors
  `A` [16, 4096] (rank × input) and `B` [4096, 16] (output × rank); the scale is the float 2.0.

  * `foldedW`: the weight with the correction folded in, W[o,d] + 2 · ∑_r B[o,r] · A[r,d].
  * `rowsDot`: rows against rows, (Y · Vᵀ)[m,o] = ∑_d Y[m,d] · V[o,d], over the flattened [8192, 4096] activations.
  * `fusedOut`: the fused program's result: flatten `X` to [8192, 4096], take `rowsDot` with `foldedW`, reshape back.
  * `loraOut`: the plain program's result, ∑_d X[b,s,d] · W[o,d] + 2 · ∑_r (∑_d X[b,s,d] · A[r,d]) · B[o,r].

  `fusedOut_eq_loraOut`: on finite arrays the two are one function — row (b, s) of `X` is row 2048·b + s of the flattened
  array, and the law of Algebra.lean joins the two sides at each (b, s, o).
-/
import proofs.«159018_j38500086841722_1_alg».proof.Proof.Algebra
import Idealize.ShloMosaic.PureOps.Ideal
import Idealize.ShloMosaic.Lib.ValueIdx
import Idealize.ShloMosaic.Lib.Pipeline.Value

noncomputable section

namespace Cert.Lora

open Idealize.ShloMosaic Idealize.ShloMosaic.ValueIdx

abbrev SX : Shape := ⟨3, ![4, 2048, 4096]⟩
abbrev SW : Shape := ⟨2, ![4096, 4096]⟩
abbrev SA : Shape := ⟨2, ![16, 4096]⟩
abbrev SB : Shape := ⟨2, ![4096, 16]⟩
abbrev SF : Shape := ⟨2, ![8192, 4096]⟩

/-- The scale, as both programs spell it: the float 2.0. -/
abbrev two : EReal := Ideal.ofBits .f32 0x40000000#32

/-- The float 2.0 denotes the real number 2. -/
theorem two_eq : two = ((2 : ℝ) : EReal) := by
  simp [two, Ideal.ofBits, Ideal.ieee, -EReal.coe_mul]; norm_num

/-- An array all of whose entries are real numbers. -/
def Finite {S : Shape} (X : S.Idx → EReal) : Prop := ∀ i, ∃ r : ℝ, X i = (r : EReal)

/-- The weight with the low-rank correction folded in. -/
def foldedW (W : SW.Idx → EReal) (A : SA.Idx → EReal) (B : SB.Idx → EReal) : SW.Idx → EReal := fun i =>
  W i + two * ∑ r : Fin 16, B (ix2 ⟨(i 0).val, (i 0).isLt⟩ r) * A (ix2 r ⟨(i 1).val, (i 1).isLt⟩)

/-- Rows against rows: entry (m, o) is row m of `Y` contracted with row o of `V`. -/
def rowsDot (Y : SF.Idx → EReal) (V : SW.Idx → EReal) : SF.Idx → EReal := fun j =>
  ∑ k : Fin 4096, Y (ix2 ⟨(j 0).val, (j 0).isLt⟩ k) * V (ix2 ⟨(j 1).val, (j 1).isLt⟩ k)

/-- The fused program's result. -/
def fusedOut (h1 : SX.ShapeCasts SF) (h2 : SF.ShapeCasts SX) (X : SX.Idx → EReal) (W : SW.Idx → EReal) (A : SA.Idx → EReal)
    (B : SB.Idx → EReal) : SX.Idx → EReal :=
  shapeCast SX (rowsDot (shapeCast SF X h1) (foldedW W A B)) h2

/-- The plain program's result. -/
def loraOut (X : SX.Idx → EReal) (W : SW.Idx → EReal) (A : SA.Idx → EReal) (B : SB.Idx → EReal) : SX.Idx → EReal := fun i =>
  (∑ k : Fin 4096, X (ix3 ⟨(i 0).val, (i 0).isLt⟩ ⟨(i 1).val, (i 1).isLt⟩ k) * W (ix2 ⟨(i 2).val, (i 2).isLt⟩ k))
    + two * ∑ r : Fin 16, (∑ k : Fin 4096, X (ix3 ⟨(i 0).val, (i 0).isLt⟩ ⟨(i 1).val, (i 1).isLt⟩ k) * A (ix2 r k))
        * B (ix2 ⟨(i 2).val, (i 2).isLt⟩ r)

/-- Row (b, s) of the activations is row 2048·b + s of the flattened array. -/
theorem flat_row (h1 : SX.ShapeCasts SF) (X : SX.Idx → EReal) (b : Fin 4) (s : Fin 2048) (k : Fin 4096)
    (hm : b.val * 2048 + s.val < 8192) :
    shapeCast SF X h1 (ix2 ⟨b.val * 2048 + s.val, hm⟩ k) = X (ix3 b s k) := by
  refine shapeCast_apply X h1 _ _ ?_
  rw [Shape.rowMajor_val_three, Shape.rowMajor_val_two]
  rfl

/-- Entry (b, s, o) of the reshaped result is entry (2048·b + s, o) of the flat one. -/
theorem unflat_entry (h2 : SF.ShapeCasts SX) (Z : SF.Idx → EReal) (b : Fin 4) (s : Fin 2048) (o : Fin 4096)
    (hm : b.val * 2048 + s.val < 8192) :
    shapeCast SX Z h2 (ix3 b s o) = Z (ix2 ⟨b.val * 2048 + s.val, hm⟩ o) := by
  refine shapeCast_apply Z h2 _ _ ?_
  rw [Shape.rowMajor_val_three, Shape.rowMajor_val_two]
  rfl

/-- On finite arrays the fused result is the plain one. -/
theorem fusedOut_eq_loraOut (h1 : SX.ShapeCasts SF) (h2 : SF.ShapeCasts SX) (X : SX.Idx → EReal) (W : SW.Idx → EReal)
    (A : SA.Idx → EReal) (B : SB.Idx → EReal) (hX : Finite X) (hW : Finite W) (hA : Finite A) (hB : Finite B) :
    fusedOut h1 h2 X W A B = loraOut X W A B := by
  funext i
  obtain ⟨b, s, o, rfl⟩ : ∃ (b : Fin 4) (s : Fin 2048) (o : Fin 4096), i = ix3 b s o := ⟨i 0, i 1, i 2, eq_ix3 i⟩
  have hm : b.val * 2048 + s.val < 8192 := by have := b.isLt; have := s.isLt; omega
  unfold fusedOut
  rw [unflat_entry h2 _ b s o hm]
  unfold rowsDot loraOut
  show ∑ k : Fin 4096, shapeCast SF X h1 (ix2 ⟨b.val * 2048 + s.val, hm⟩ k) * foldedW W A B (ix2 o k) = _
  simp only [flat_row h1 X b s _ hm]
  unfold foldedW
  rw [two_eq]
  exact fold_law (fun k => X (ix3 b s k)) (fun k => W (ix2 o k)) (fun r k => A (ix2 r k)) (fun r => B (ix2 o r)) 2
    (fun k => hX _) (fun k => hW _) (fun r k => hA _) (fun r => hB _)

end Cert.Lora

end
-- ==== Proof.FoldValue.lean ====
/-
  Region 0 of the fused program (the weight fold), read as a value at the extended reals.

  The region's grid has 16 points; point `t` handles rows 256·t … 256·t + 255 of the base weight: it loads that row block of
  `W` [256, 4096], the matching row block of `B` [256, 16] and all of `A` [16, 4096], and stores
  W_blk + 2 · (B_blk · A), narrowed to bf16 (the identity on extended reals). So the block point `t` writes back is rows
  256·t … of ONE whole-array function, `Lora.foldedW` of the three arrays as the region finds them, and the 16 row blocks
  cover the [4096, 4096] result: after the region the result array holds `Lora.foldedW W A B`.
-/
import proofs.«159018_j38500086841722_1_alg».proof.Proof.Gen.KernelIdeal.Frame
import proofs.«159018_j38500086841722_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry -/

/-- The low-rank product B_blk · A contracts axis 1 of the left operand with axis 0 of the right; its operand indices at an
    output entry, axis by axis. -/
theorem lhs_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem lhs_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
theorem rhs_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
theorem rhs_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- The stored value at entry `y` of the block: the weight's entry plus twice the rank-16 contraction of `B`'s row with
    `A`'s column. -/
theorem pay_apply (b : Vec Ideal S256x16 .f32) (a : Vec Ideal S16x4096 .f32) (w : Vec Ideal S256x4096 .f32) (y : S256x4096.Idx) :
    k0_pay1 (F := Ideal) b a w y
      = w y + Lora.two * ∑ r : Fin 16, b (ix2 ⟨(y 0).val, (y 0).isLt⟩ r) * a (ix2 r ⟨(y 1).val, (y 1).isLt⟩) := by
  unfold k0_pay1
  show w y + Lora.two * FloatOps.matmul (F := Ideal) dot_S256x16_S16x4096_S256x4096_1_0_0_1_n_n (some .fp32) b a (constant S256x4096 .f32 0x00000000#32) y = _
  rw [Ideal.matmul_constant_zero_apply, ← Equiv.sum_comp (contrEquiv1 dot_S256x16_S16x4096_S256x4096_1_0_0_1_n_n 16 rfl rfl).symm]
  refine congrArg (fun s => w y + Lora.two * s) (Finset.sum_congr rfl fun k _ => ?_)
  have hk := contrEquiv1_symm_val dot_S256x16_S16x4096_S256x4096_1_0_0_1_n_n 16 rfl rfl k
  have el : dot_S256x16_S16x4096_S256x4096_1_0_0_1_n_n.lhsIdx y ((contrEquiv1 dot_S256x16_S16x4096_S256x4096_1_0_0_1_n_n 16 rfl rfl).symm k) = ix2 ⟨(y 0).val, (y 0).isLt⟩ k := funext fun a => Fin.ext (by
    match a with
    | ⟨0, _⟩ => exact lhs_0 _ _
    | ⟨1, _⟩ => exact (lhs_1 _ _).trans hk)
  have er : dot_S256x16_S16x4096_S256x4096_1_0_0_1_n_n.rhsIdx y ((contrEquiv1 dot_S256x16_S16x4096_S256x4096_1_0_0_1_n_n 16 rfl rfl).symm k) = ix2 k ⟨(y 1).val, (y 1).isLt⟩ := funext fun a => Fin.ext (by
    match a with
    | ⟨0, _⟩ => exact (rhs_0 _ _).trans hk
    | ⟨1, _⟩ => exact rhs_1 _ _)
  rw [el, er]
  rfl

/-! ## The blocks, as rows of the arrays the region finds -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row `t`, column block 0; `A`'s window
    is the whole array. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result of the fold, of the arrays as the region finds them. -/
abbrev folded (c : Dev nD) : Buf (Elt Ideal) ((c : Thread nD τ).loc main_v0) :=
  Lora.foldedW (V c main_arg1) (V c main_arg2) (V c main_arg3)

/-- Entry `y` of the weight's block at point `t` is entry (256·t + y₀, y₁) of the weight. -/
theorem wblk_apply (c : Dev nD) (t : Fin cfg0.N) (y : S256x4096.Idx) (k : S4096x4096.Idx)
    (hk0 : (k 0).val = 256 * t.val + (y 0).val) (hk1 : (k 1).val = (y 1).val) :
    (iblk0 V c 0 t : Vec Ideal S256x4096 .f32) y = (V c main_arg1 : S4096x4096.Idx → EReal) k := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 256 + 1 * (y 0).val = (k 0).val; rw [e0, hk0]; omega
  | ⟨1, _⟩ => show win0_0.index t 1 * 4096 + 1 * (y 1).val = (k 1).val; rw [e1, hk1]; omega

/-- Entry `y` of `B`'s block at point `t` is entry (256·t + y₀, y₁) of `B`. -/
theorem bblk_apply (c : Dev nD) (t : Fin cfg0.N) (y : S256x16.Idx) (k : S4096x16.Idx)
    (hk0 : (k 0).val = 256 * t.val + (y 0).val) (hk1 : (k 1).val = (y 1).val) :
    (iblk0 V c 1 t : Vec Ideal S256x16 .f32) y = (V c main_arg3 : S4096x16.Idx → EReal) k := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 256 + 1 * (y 0).val = (k 0).val; rw [e0, hk0]; omega
  | ⟨1, _⟩ => show win0_1.index t 1 * 16 + 1 * (y 1).val = (k 1).val; rw [e1, hk1]; omega

/-- `A`'s block at every point is `A`. -/
theorem ablk_apply (c : Dev nD) (t : Fin cfg0.N) (y : S16x4096.Idx) :
    (iblk0 V c 2 t : Vec Ideal S16x4096 .f32) y = (V c main_arg2 : S16x4096.Idx → EReal) y := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 16 + 1 * (y 0).val = (y 0).val; rw [e0]; omega
  | ⟨1, _⟩ => show win0_2.index t 1 * 4096 + 1 * (y 1).val = (y 1).val; rw [e1]; omega

/-! ## What a point writes back, the cover, the array after the region -/

/-- What point `t` writes back is rows 256·t … 256·t + 255 of `folded`. -/
theorem flushed_eq (c : Dev nD) (t : Fin cfg0.N) :
    (dat0 V c).flushed 3 t = ((cfg0.win 3).blk t).view.read (Elt Ideal) (folded V c) := by
  show (cfg0.win 3).cut (grid0.coords t) ((dat0 V c).after 3 t) = _
  rw [after0_3]
  unfold out0_3
  rw [View.canon_unit_zero hz]
  simp only [View.ld_unit_zero (S := S256x4096) hz, View.ld_unit_zero (S := S256x16) hz, View.ld_unit_zero (S := S16x4096) hz]
  funext j
  have hj0 : (j 0).val < 256 := (j 0).isLt
  have hj1 : (j 1).val < 4096 := (j 1).isLt
  have ht : t.val < 16 := t.isLt.trans_eq N_0
  obtain ⟨-, -, -, -, -, -, e0, e1⟩ := idx_facts t
  refine (pay_apply (iblk0 V c 1 t) (iblk0 V c 2 t) (iblk0 V c 0 t) j).trans ?_
  rw [View.read_apply]
  have he : ((cfg0.win 3).blk t).view.emb j = (ix2 ⟨256 * t.val + (j 0).val, by omega⟩ ⟨(j 1).val, hj1⟩ : S4096x4096.Idx) := by
    funext a
    apply Fin.ext
    match a with
    | ⟨0, _⟩ => show win0_3.index t 0 * 256 + 1 * (j 0).val = 256 * t.val + (j 0).val; rw [e0]; omega
    | ⟨1, _⟩ => show win0_3.index t 1 * 4096 + 1 * (j 1).val = (j 1).val; rw [e1]; omega
  rw [he]
  unfold folded Lora.foldedW
  rw [wblk_apply V c t j (ix2 ⟨256 * t.val + (j 0).val, by omega⟩ ⟨(j 1).val, hj1⟩) rfl rfl]
  refine congrArg (fun s => _ + Lora.two * s) (Finset.sum_congr rfl fun r _ => ?_)
  rw [bblk_apply V c t (ix2 ⟨(j 0).val, hj0⟩ r) (ix2 ⟨256 * t.val + (j 0).val, by omega⟩ r) rfl rfl,
    ablk_apply V c t (ix2 r ⟨(j 1).val, hj1⟩)]

/-- An entry of the result is in point `t`'s block iff each coordinate is in the block's range on its axis. -/
theorem mem_blk (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v0).slice (win0_3.rect t)).set ↔ _
  rw [View.set_slice_whole, Rect.mem_set_unit]
  exact Iff.rfl

/-- Row `r` of the result is written by point `r / 256`. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  refine ⟨⟨(i 0).val / 256, by rw [show cfg0.N = 16 from N_0]; omega⟩, flush0_3 _, ?_⟩
  rw [mem_blk]
  obtain ⟨-, -, -, -, -, -, e0, e1⟩ := idx_facts ⟨(i 0).val / 256, by rw [show cfg0.N = 16 from N_0]; omega⟩
  intro a
  match a with
  | ⟨0, _⟩ => show win0_3.index _ 0 * 256 ≤ (i 0).val ∧ (i 0).val < win0_3.index _ 0 * 256 + 256; rw [e0]; show (i 0).val / 256 * 256 ≤ _ ∧ _ < (i 0).val / 256 * 256 + 256; omega
  | ⟨1, _⟩ => show win0_3.index _ 1 * 4096 ≤ (i 1).val ∧ (i 1).val < win0_3.index _ 1 * 4096 + 4096; rw [e1]; omega

/-- After the region the result array holds the folded weight of the arrays the region found. -/
theorem final (c : Dev nD) : (dat0 V c).arrAt 3 cfg0.N = folded V c :=
  (dat0 V c).arrAt_eq_of_cover 3 (folded V c) (fun t _ => flushed_eq V c t) cover

end Cert.KernelIdeal.Fold

end
-- ==== Proof.ProductValue.lean ====
/-
  Region 1 of the fused program (the main product), read as a value at the extended reals.

  The region's grid is 16 × 4; point (i, j) loads rows 512·i … of the flattened activations [512, 4096] and rows 1024·j … of the
  folded weight [1024, 4096], and stores their rows-against-rows product [512, 1024] (both operands contracted along their
  axis 1, into a zero accumulator) as block (i, j) of the result. So the block a point writes back is a block of ONE
  whole-array function, `Lora.rowsDot` of the two arrays as the region finds them, and the 64 blocks tile the [8192, 4096]
  result: after the region the result array holds `Lora.rowsDot Y Wc`.
-/
import proofs.«159018_j38500086841722_1_alg».proof.Proof.Gen.KernelIdeal.Frame
import proofs.«159018_j38500086841722_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry -/

/-- The product contracts axis 1 of both operands; its operand indices at an output entry, axis by axis. -/
theorem lhs_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The stored value at entry `y` of the block: row y₀ of the activations' block contracted with row y₁ of the weight's. -/
theorem pay_apply (x : Vec Ideal S512x4096 .bf16) (w : Vec Ideal S1024x4096 .bf16) (y : S512x1024.Idx) :
    k1_pay1 (F := Ideal) x w y
      = ∑ k : Fin 4096, x (ix2 ⟨(y 0).val, (y 0).isLt⟩ k) * w (ix2 ⟨(y 1).val, (y 1).isLt⟩ k) := by
  unfold k1_pay1
  show FloatOps.matmul (F := Ideal) dot_S512x4096_S1024x4096_S512x1024_1_1_0_0_n_n none (shapeCast S512x4096 x shapeCasts_S512x4096_S512x4096) (shapeCast S1024x4096 w shapeCasts_S1024x4096_S1024x4096) (constant S512x1024 .f32 0x00000000#32) y = _
  rw [shapeCast_self, shapeCast_self, Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx y ((contrEquiv1 dot_S512x4096_S1024x4096_S512x1024_1_1_0_0_n_n 4096 rfl rfl).symm k) = ix2 ⟨(y 0).val, (y 0).isLt⟩ k := funext fun a => Fin.ext (by
    match a with
    | ⟨0, _⟩ => exact lhs_0 _ _
    | ⟨1, _⟩ => exact (lhs_1 _ _).trans hk)
  have er : dot_S512x4096_S1024x4096_S512x1024_1_1_0_0_n_n.rhsIdx y ((contrEquiv1 dot_S512x4096_S1024x4096_S512x1024_1_1_0_0_n_n 4096 rfl rfl).symm k) = ix2 ⟨(y 1).val, (y 1).isLt⟩ k := funext fun a => Fin.ext (by
    match a with
    | ⟨0, _⟩ => exact rhs_0 _ _
    | ⟨1, _⟩ => exact (rhs_1 _ _).trans hk)
  rw [el, er]
  rfl

/-! ## The blocks, as rows of the arrays the region finds -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: point `t` is (t / 4, t % 4); the activations' window sits at block row t / 4, the
    weight's at block row t % 4, the result's at block (t / 4, t % 4). -/
theorem idx_facts : ∀ t : Fin cfg1.N, win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4 :=
  (by decide +kernel : ∀ t : Fin grid1.N, _)

/-- The product, of the arrays as the region finds them. -/
abbrev prod (c : Dev nD) : Buf (Elt Ideal) ((c : Thread nD τ).loc main_v3) :=
  Lora.rowsDot (V c main_v2) (V c main_v0)

/-- Entry `y` of the activations' block at point `t` is entry (512·(t / 4) + y₀, y₁) of the flattened activations. -/
theorem xblk_apply (c : Dev nD) (t : Fin cfg1.N) (y : S512x4096.Idx) (k : S8192x4096.Idx)
    (hk0 : (k 0).val = 512 * (t.val / 4) + (y 0).val) (hk1 : (k 1).val = (y 1).val) :
    (iblk1 V c 0 t : Vec Ideal S512x4096 .bf16) y = (V c main_v2 : S8192x4096.Idx → EReal) k := by
  obtain ⟨e0, e1, -⟩ := idx_facts t
  unfold iblk1
  rw [View.read_apply]
  show V c main_v2 _ = V c main_v2 _
  congr 1
  funext a
  apply Fin.ext
  match a with
  | ⟨0, _⟩ => show win1_0.index t 0 * 512 + 1 * (y 0).val = (k 0).val; rw [e0, hk0]; omega
  | ⟨1, _⟩ => show win1_0.index t 1 * 4096 + 1 * (y 1).val = (k 1).val; rw [e1, hk1]; omega

/-- Entry `y` of the weight's block at point `t` is entry (1024·(t % 4) + y₀, y₁) of the folded weight. -/
theorem wblk_apply (c : Dev nD) (t : Fin cfg1.N) (y : S1024x4096.Idx) (k : S4096x4096.Idx)
    (hk0 : (k 0).val = 1024 * (t.val % 4) + (y 0).val) (hk1 : (k 1).val = (y 1).val) :
    (iblk1 V c 1 t : Vec Ideal S1024x4096 .bf16) y = (V c main_v0 : S4096x4096.Idx → EReal) k := by
  obtain ⟨-, -, e0, e1, -⟩ := idx_facts t
  unfold iblk1
  rw [View.read_apply]
  show V c main_v0 _ = V c main_v0 _
  congr 1
  funext a
  apply Fin.ext
  match a with
  | ⟨0, _⟩ => show win1_1.index t 0 * 1024 + 1 * (y 0).val = (k 0).val; rw [e0, hk0]; omega
  | ⟨1, _⟩ => show win1_1.index t 1 * 4096 + 1 * (y 1).val = (k 1).val; rw [e1, hk1]; omega

/-! ## What a point writes back, the cover, the array after the region -/

/-- What point `t` writes back is block (t / 4, t % 4) of `prod`. -/
theorem flushed_eq (c : Dev nD) (t : Fin cfg1.N) :
    (dat1 V c).flushed 2 t = ((cfg1.win 2).blk t).view.read (Elt Ideal) (prod V c) := by
  show (cfg1.win 2).cut (grid1.coords t) ((dat1 V c).after 2 t) = _
  rw [after1_2]
  unfold out1_2
  rw [View.canon_unit_zero hz]
  simp only [View.ld_unit_zero (S := S512x4096) hz, View.ld_unit_zero (S := S1024x4096) hz]
  funext j
  have hj0 : (j 0).val < 512 := (j 0).isLt
  have hj1 : (j 1).val < 1024 := (j 1).isLt
  have ht : t.val < 64 := t.isLt.trans_eq N_1
  obtain ⟨-, -, -, -, e0, e1⟩ := idx_facts t
  refine (pay_apply (iblk1 V c 0 t) (iblk1 V c 1 t) j).trans ?_
  rw [View.read_apply]
  have he : ((cfg1.win 2).blk t).view.emb j = (ix2 ⟨512 * (t.val / 4) + (j 0).val, by omega⟩ ⟨1024 * (t.val % 4) + (j 1).val, by omega⟩ : S8192x4096.Idx) := by
    funext a
    apply Fin.ext
    match a with
    | ⟨0, _⟩ => show win1_2.index t 0 * 512 + 1 * (j 0).val = 512 * (t.val / 4) + (j 0).val; rw [e0]; omega
    | ⟨1, _⟩ => show win1_2.index t 1 * 1024 + 1 * (j 1).val = 1024 * (t.val % 4) + (j 1).val; rw [e1]; omega
  rw [he]
  unfold prod Lora.rowsDot
  refine Finset.sum_congr rfl fun k _ => ?_
  rw [xblk_apply V c t (ix2 ⟨(j 0).val, hj0⟩ k) (ix2 ⟨512 * (t.val / 4) + (j 0).val, by omega⟩ k) rfl rfl,
    wblk_apply V c t (ix2 ⟨(j 1).val, hj1⟩ k) (ix2 ⟨1024 * (t.val % 4) + (j 1).val, by omega⟩ k) rfl rfl]

/-- An entry of the result is in point `t`'s block iff each coordinate is in the block's range on its axis. -/
theorem mem_blk (t : Fin cfg1.N) (i : S8192x4096.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v3).slice (win1_2.rect t)).set ↔ _
  rw [View.set_slice_whole, Rect.mem_set_unit]
  exact Iff.rfl

/-- Entry (r, o) of the result is written by point 4·(r / 512) + o / 1024. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hlt : (i 0).val / 512 * 4 + (i 1).val / 1024 < cfg1.N := by rw [show cfg1.N = 64 from N_1]; omega
  refine ⟨⟨(i 0).val / 512 * 4 + (i 1).val / 1024, hlt⟩, flush1_2 _, ?_⟩
  rw [mem_blk]
  obtain ⟨-, -, -, -, e0, e1⟩ := idx_facts ⟨(i 0).val / 512 * 4 + (i 1).val / 1024, hlt⟩
  intro a
  match a with
  | ⟨0, _⟩ => show win1_2.index _ 0 * 512 ≤ (i 0).val ∧ (i 0).val < win1_2.index _ 0 * 512 + 512; rw [e0]; show ((i 0).val / 512 * 4 + (i 1).val / 1024) / 4 * 512 ≤ _ ∧ _ < ((i 0).val / 512 * 4 + (i 1).val / 1024) / 4 * 512 + 512; omega
  | ⟨1, _⟩ => show win1_2.index _ 1 * 1024 ≤ (i 1).val ∧ (i 1).val < win1_2.index _ 1 * 1024 + 1024; rw [e1]; show ((i 0).val / 512 * 4 + (i 1).val / 1024) % 4 * 1024 ≤ _ ∧ _ < ((i 0).val / 512 * 4 + (i 1).val / 1024) % 4 * 1024 + 1024; omega

/-- After the region the result array holds the rows-against-rows product of the arrays the region found. -/
theorem final (c : Dev nD) : (dat1 V c).arrAt 2 cfg1.N = prod V c :=
  (dat1 V c).arrAt_eq_of_cover 2 (prod V c) (fun t _ => flushed_eq V c t) cover

end Cert.KernelIdeal.Product

end
-- ==== Proof.KernelValue.lean ====
/-
  The fused program's result array after the run, as one function of the argument arrays (at the extended reals).

  Walking the run's segment boundaries backwards from the result: the last host step reshapes region 1's result [8192, 4096]
  to [4, 2048, 4096]; region 1 leaves `Lora.rowsDot` of the two arrays it finds (ProductValue.lean); of those, the
  activations' is the first argument reshaped to [8192, 4096] and narrowed to bf16 (the identity on extended reals) by the host
  steps between the regions, and the weight's is what region 0 left, `Lora.foldedW` of the other three arguments
  (FoldValue.lean), which no host step touches. Together: `Lora.fusedOut` of the four arguments.
-/
import proofs.«159018_j38500086841722_1_alg».proof.Proof.KernelIdealRun
import proofs.«159018_j38500086841722_1_alg».proof.Proof.FoldValue
import proofs.«159018_j38500086841722_1_alg».proof.Proof.ProductValue
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The activations as region 1 finds them: the first argument flattened (the narrowing to bf16 is the identity). -/
theorem entry_x (c : Dev nD) :
    (V2 m ρ c main_v2 : S8192x4096.Idx → EReal) = shapeCast S8192x4096 (m ((c : Thread nD τ).loc main_arg0)) shapeCasts_S4x2048x4096_S8192x4096 := by
  show StableHlo.after hostOps1 (W1 m ρ c) (Proc.devRef .tc main_v2) = _
  after_results
  rw [W1_of_ne m ρ c main_arg0 (by decide)]
  rfl

/-- The weight as region 1 finds it: what region 0 left. -/
theorem entry_w (c : Dev nD) :
    (V2 m ρ c main_v0 : S4096x4096.Idx → EReal) = Lora.foldedW (m ((c : Thread nD τ).loc main_arg1)) (m ((c : Thread nD τ).loc main_arg2)) (m ((c : Thread nD τ).loc main_arg3)) := by
  show StableHlo.after hostOps1 (W1 m ρ c) (Proc.devRef .tc main_v0) = _
  after_results
  exact (W1_arr m ρ c 3).trans (Fold.final (V0 m ρ) c)

/-- The result array at the last boundary. -/
theorem result_eq (c : Dev nD) :
    W4 m ρ c (Proc.devRef .tc main_v4) = shapeCast S4x2048x4096 (Product.prod (V2 m ρ) c) shapeCasts_S8192x4096_S4x2048x4096 := by
  show StableHlo.after hostOps2 (W3 m ρ c) (Proc.devRef .tc main_v4) = _
  after_results
  have e : W3 m ρ c (Proc.devRef .tc main_v3) = Product.prod (V2 m ρ) c := (W3_arr m ρ c 2).trans (Product.final (V2 m ρ) c)
  rw [e]
  rfl

/-- The result array at the last boundary is the fused function of the four arguments. -/
theorem result_value (c : Dev nD) :
    W4 m ρ c (Proc.devRef .tc main_v4)
      = Lora.fusedOut shapeCasts_S4x2048x4096_S8192x4096 shapeCasts_S8192x4096_S4x2048x4096 (m ((c : Thread nD τ).loc main_arg0))
          (m ((c : Thread nD τ).loc main_arg1)) (m ((c : Thread nD τ).loc main_arg2)) (m ((c : Thread nD τ).loc main_arg3)) := by
  rw [result_eq]
  unfold Product.prod Lora.fusedOut
  rw [entry_x, entry_w]

/-- The run, read: every weakly fair execution terminates with the result array at the fused function of the arguments and
    the arguments as launched. -/
theorem run : θ_run defs (onTc (τ := τ) (main (F := Ideal))) ⟨m, fun _ => 0, ρ⟩ (fun r => ∀ c : Dev nD,
      r.2.mem ((c.tc : Thread nD τ).loc main_v4)
        = Lora.fusedOut shapeCasts_S4x2048x4096_S8192x4096 shapeCasts_S8192x4096_S4x2048x4096 (m ((c : Thread nD τ).loc main_arg0))
            (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (Cert.KernelIdeal.GenP.run_main m ρ)

end Cert.KernelIdeal.Fused

end
-- ==== Proof.RefValue.lean ====
/-
  The plain program's result as a function of the argument arrays: the generated run's term, read one operation at a time,
  is `Lora.loraOut` — the base product X · Wᵀ plus 2.0 times the two-step low-rank product (X · Aᵀ) · Bᵀ, entry by entry.
  What is written here is only the bookkeeping of indices: each operand index the generated reading names is the evident
  triple or pair of coordinates.
-/
import proofs.«159018_j38500086841722_1_alg».proof.Proof.Gen.ReferenceIdeal.Read
import proofs.«159018_j38500086841722_1_alg».proof.Proof.Spec

noncomputable section

namespace Cert.ReferenceIdeal.RefValue

open Cert.ReferenceIdeal Cert.ReferenceIdeal.Read
open Idealize.ShloMosaic Idealize.ShloMosaic.ValueIdx

/-- The reference's result, at the extended reals, is `Lora.loraOut` of its arguments. -/
theorem result_eq (x : (⟨S4x2048x4096, .f32⟩ : BufTy).Contents (Elt Ideal)) (w : (⟨S4096x4096, .f32⟩ : BufTy).Contents (Elt Ideal))
    (a : (⟨S16x4096, .f32⟩ : BufTy).Contents (Elt Ideal)) (b : (⟨S4096x16, .f32⟩ : BufTy).Contents (Elt Ideal)) :
    val_main_v5 (F := Ideal) x w a b = Lora.loraOut x w a b := by
  funext i
  obtain ⟨p, q, o, rfl⟩ : ∃ (p : Fin 4) (q : Fin 2048) (o : Fin 4096), i = ix3 p q o := ⟨i 0, i 1, i 2, eq_ix3 i⟩
  have h0l : ∀ k : Fin 4096, lidx_main_v0 (ix3 p q o) k = ix3 p q k := fun k =>
    funext fun d => Fin.ext (by match d with | ⟨0, _⟩ => rfl | ⟨1, _⟩ => rfl | ⟨2, _⟩ => rfl)
  have h0r : ∀ k : Fin 4096, ridx_main_v0 (ix3 p q o) k = ix2 o k := fun k =>
    funext fun d => Fin.ext (by match d with | ⟨0, _⟩ => rfl | ⟨1, _⟩ => rfl)
  have h2l : ∀ r : Fin 16, lidx_main_v2 (ix3 p q o) r = ix3 p q r := fun r =>
    funext fun d => Fin.ext (by match d with | ⟨0, _⟩ => rfl | ⟨1, _⟩ => rfl | ⟨2, _⟩ => rfl)
  have h2r : ∀ r : Fin 16, ridx_main_v2 (ix3 p q o) r = ix2 o r := fun r =>
    funext fun d => Fin.ext (by match d with | ⟨0, _⟩ => rfl | ⟨1, _⟩ => rfl)
  have h1l : ∀ (r : Fin 16) (k : Fin 4096), lidx_main_v1 (ix3 p q r) k = ix3 p q k := fun r k =>
    funext fun d => Fin.ext (by match d with | ⟨0, _⟩ => rfl | ⟨1, _⟩ => rfl | ⟨2, _⟩ => rfl)
  have h1r : ∀ (r : Fin 16) (k : Fin 4096), ridx_main_v1 (ix3 p q r) k = ix2 r k := fun r k =>
    funext fun d => Fin.ext (by match d with | ⟨0, _⟩ => rfl | ⟨1, _⟩ => rfl)
  rw [val_main_v5_apply, val_main_v0_apply, val_main_v4_apply, val_main_v3_apply, val_main_cst_apply, val_main_v2_apply]
  simp only [h0l, h0r, h2l, h2r, val_main_v1_apply, h1l, h1r]
  rfl

end Cert.ReferenceIdeal.RefValue

end
-- ==== Proof.FiniteInputs.lean ====
/-
  The precondition read back: when `finite_inputs` holds of the four argument arrays, every entry of each is a real number.

  The printed predicate is the conjunction of four `jnp.all(|v| < +inf)`, one per argument. Its value 1 splits into the four
  reductions being 1; a reduction by `and` over all axes that is 1 had a 1 at every entry; and an entry `v` with
  max(v, −v) below the float +inf (the extended real ⊤) is neither ⊤ nor ⊥.
-/
import proofs.«159018_j38500086841722_1_alg».proof.Pre_finite_inputs
import proofs.«159018_j38500086841722_1_alg».proof.Proof.Spec
import Idealize.ShloMosaic.Lib.ReduceAll
import Idealize.ShloMosaic.Lib.ValueIdx
import Idealize.ShloMosaic.Lib.Pipeline.Value

noncomputable section

namespace Cert.Lora

open Idealize.ShloMosaic Cert.Pre_finite_inputs

instance : Subsingleton S_.Idx := ⟨fun a b => funext fun d => d.elim0⟩

/-- An extended real whose absolute value is below the float +inf is a real number. -/
theorem real_of_abs_lt (v : EReal) (h : Ideal.cmp .olt (max v (-v)) (Ideal.ofBits .f32 0x7F800000#32) = 1#1) :
    ∃ r : ℝ, v = (r : EReal) := by
  have hinf : Ideal.ofBits .f32 0x7F800000#32 = ⊤ := by simp [Ideal.ofBits, Ideal.ieee]
  rw [hinf] at h
  induction v using EReal.rec with
  | bot => simp [Ideal.cmp] at h
  | top => simp [Ideal.cmp] at h
  | coe r => exact ⟨r, rfl⟩

/-- One `jnp.all(|v| < +inf)` that is 1: every entry of `v` is a real number. -/
theorem finite_of_all {S : Shape} {axes : List (Fin S.rank)} (v : FVec Ideal S .f32) (hb : S_.BroadcastsInDim S (![] : Fin 0 → Fin S.rank))
    (hr : S.ReducesTo axes S_) (hu : 0 < S_.numel)
    (e : Host.reduce IntOp.andi (cmpf .olt (Host.absf v) (broadcastInDim S ![] hb (constant S_ .f32 0x7F800000#32))) (constantI S_ 1 1#1) hr hu ValueIdx.ix0 = 1#1) :
    Finite v := fun i => by
  have ei := Host.reduce_andi_all _ _ hr hu ValueIdx.ix0 e i
  rw [ValueIdx.cmpf_apply, broadcastInDim_apply _ hb _ i ValueIdx.ix0 (fun a => a.elim0)] at ei
  exact real_of_abs_lt (v i) ei

/-- The precondition gives finiteness of all four arguments. -/
theorem finite_of_pre [Cert.Pre_finite_inputs.Facts] (x : FVec Ideal S4x2048x4096 .f32) (w : FVec Ideal S4096x4096 .f32)
    (a : FVec Ideal S16x4096 .f32) (b : FVec Ideal S4096x16 .f32)
    (h : Cert.Pre_finite_inputs.fn (F := Ideal) x w a b = fun _ => 1#1) :
    Finite x ∧ Finite w ∧ Finite a ∧ Finite b := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨finite_of_all x _ _ _ h0', finite_of_all w _ _ _ h1, finite_of_all a _ _ _ h2, finite_of_all b _ _ _ h3⟩

end Cert.Lora

end
-- ==== Proof.lean ====
/- The certificate of the fused LoRA forward against its plain reference, over the extended reals.

   The fused program computes out = X · (W + 2·B·A)ᵀ in two kernel regions: the first folds the rank-16 correction into the
   base weight row block by row block (and narrows it to bf16, the identity on extended reals), the second multiplies the
   flattened activations with the folded weight block by block. The plain program computes X · Wᵀ + 2 · ((X · Aᵀ) · Bᵀ).
   For finite inputs the two agree entry by entry: ∑_d x_d (w_d + 2 ∑_r b_r a_{r,d}) = ∑_d x_d w_d + 2 ∑_r (∑_d x_d a_{r,d}) b_r,
   which is distributivity and an exchange of two finite sums — valid on the extended reals because every entry is a real
   number, which is what the precondition says.

   The pieces: Algebra.lean (the law), Spec.lean (both results as functions of the arguments, and their equality on finite
   arrays), FiniteInputs.lean (the precondition read back), FoldValue.lean and ProductValue.lean (what each region leaves in
   its result array), KernelIdealRun.lean and KernelValue.lean (the fused program's run with its result named),
   RefValue.lean (the plain program's result). The three frames are the generated ones; the idealization rewrote nothing. -/
import proofs.«159018_j38500086841722_1_alg».proof.Defs
import proofs.«159018_j38500086841722_1_alg».proof.Proof.Gen.Kernel
import proofs.«159018_j38500086841722_1_alg».proof.Proof.Gen.Kernel.Skeleton
import proofs.«159018_j38500086841722_1_alg».proof.Proof.Gen.Kernel.Launch
import proofs.«159018_j38500086841722_1_alg».proof.Proof.Gen.Kernel.Points
import proofs.«159018_j38500086841722_1_alg».proof.Proof.Gen.Kernel.Frame
import proofs.«159018_j38500086841722_1_alg».proof.Proof.Gen.KernelIdeal
import proofs.«159018_j38500086841722_1_alg».proof.Proof.Gen.KernelIdeal.Skeleton
import proofs.«159018_j38500086841722_1_alg».proof.Proof.Gen.KernelIdeal.Launch
import proofs.«159018_j38500086841722_1_alg».proof.Proof.Gen.KernelIdeal.Points
import proofs.«159018_j38500086841722_1_alg».proof.Proof.Gen.KernelIdeal.Frame
import proofs.«159018_j38500086841722_1_alg».proof.Proof.Gen.ReferenceIdeal
import proofs.«159018_j38500086841722_1_alg».proof.Proof.Gen.Pre_finite_inputs
import proofs.«159018_j38500086841722_1_alg».proof.Proof.Gen.ReferenceIdeal.Run
import proofs.«159018_j38500086841722_1_alg».proof.Proof.Gen.ReferenceIdeal.Read
import proofs.«159018_j38500086841722_1_alg».proof.Proof.KernelValue
import proofs.«159018_j38500086841722_1_alg».proof.Proof.RefValue
import proofs.«159018_j38500086841722_1_alg».proof.Proof.FiniteInputs
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four finite arguments both programs end with the result array at `Lora.loraOut` of the
    arguments: the fused one at `Lora.fusedOut`, which is `Lora.loraOut` on finite arrays; the plain one by its run read back. -/
theorem algebraic : Cert.algebraic_KernelIdeal_ReferenceIdeal := by
  intro m ρ m' ρ' hpre hagree
  refine ⟨fun c => Cert.Lora.loraOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Fused.run m ρ)
    obtain ⟨hx, hw, ha, hb⟩ := Cert.Lora.finite_of_pre _ _ _ _ (hpre c)
    exact Cert.Lora.fusedOut_eq_loraOut _ _ _ _ _ _ hx hw ha hb
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.result_eq, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
